-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S100000x128 : Shape := ⟨2, ![100000, 128]⟩
abbrev S18x128 : Shape := ⟨2, ![18, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S18x128 : S_.BroadcastsInDim S18x128 (![] : Fin 0 → Fin S18x128.rank)
  reducesTo_S18x128_S_d0_1 : S18x128.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg1 : IVec S1024 32) (main_v15 : IVec S_ 1) (main_c_5 : IVec S_ 32) : IVec S_ 1 :=
  let main_v16 : IVec S1024 32 := broadcastInDim S1024 ![] bcast_S_S1024 main_c_5
  let main_v17 : IVec S1024 1 := cmpi .sge main_arg1 main_v16
  let main_c_6 : IVec S_ 32 := constantI S_ 32 18#32
  let main_v18 : IVec S1024 32 := broadcastInDim S1024 ![] bcast_S_S1024 main_c_6
  let main_v19 : IVec S1024 1 := cmpi .slt main_arg1 main_v18
  let main_v20 : IVec S1024 1 := andi main_v17 main_v19
  let main_c_7 : IVec S_ 1 := constantI S_ 1 1#1
  let main_v21 : IVec S_ 1 := (fun x v => Host.reduce IntOp.andi x v reducesTo_S1024_S_d0 h_S_) main_v20 main_c_7
  let main_v22 : IVec S_ 1 := andi main_v15 main_v21
  main_v22

def fn {F : FTy → Type} [FloatOps F] (main_arg0 : IVec S1024 32) (main_arg1 : IVec S1024 32) (main_arg2 : FVec F S100000x128 .f32) (main_arg3 : FVec F S18x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S18x128 .f32 := Host.absf main_arg3
  let main_cst_0 : FVec F S_ .f32 := constant S_ .f32 0x7F800000#32
  let main_v5 : FVec F S18x128 .f32 := broadcastInDim S18x128 ![] bcast_S_S18x128 main_cst_0
  let main_v6 : IVec S18x128 1 := cmpf .olt main_v4 main_v5
  let main_c_1 : IVec S_ 1 := constantI S_ 1 1#1
  let main_v7 : IVec S_ 1 := (fun x v => Host.reduce IntOp.andi x v reducesTo_S18x128_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg0 main_v9
  let main_c_3 : IVec S_ 32 := constantI S_ 32 100000#32
  let main_v11 : IVec S1024 32 := broadcastInDim S1024 ![] bcast_S_S1024 main_c_3
  let main_v12 : IVec S1024 1 := cmpi .slt main_arg0 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S1024 : Shape := ⟨1, ![1024]⟩
abbrev S100000x128 : Shape := ⟨2, ![100000, 128]⟩
abbrev S18x128 : Shape := ⟨2, ![18, 128]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩
abbrev S1024x100000 : Shape := ⟨2, ![1024, 100000]⟩
abbrev S3072x128 : Shape := ⟨2, ![3072, 128]⟩
abbrev S1024x3072 : Shape := ⟨2, ![1024, 3072]⟩

abbrev nBuf : Space → Nat
  | .hbm => 52
  | .vmem => 5
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x128, .f32⟩
  | .hbm, ⟨3, _⟩ => ⟨S18x128, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024x128, .f32⟩
  | .hbm, ⟨23, _⟩ => ⟨S1024x128, .i1⟩
  | .hbm, ⟨24, _⟩ => ⟨S_, .f32⟩
  | .hbm, ⟨25, _⟩ => ⟨S1024x128, .f32⟩
  | .hbm, ⟨26, _⟩ => ⟨S1024x128, .f32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S1, .i32⟩
  | .hbm, ⟨36, _⟩ => ⟨S_, .i32⟩
  | .hbm, ⟨37, _⟩ => ⟨S1024x1, .i32⟩
  | .hbm, ⟨38, _⟩ => ⟨S1024x1, .i1⟩
  | .hbm, ⟨39, _⟩ => ⟨S1x1, .i32⟩
  | .hbm, ⟨40, _⟩ => ⟨S1024x1, .i32⟩
  | .hbm, ⟨41, _⟩ => ⟨S1024x1, .i1⟩
  | .hbm, ⟨42, _⟩ => ⟨S1024x1, .i1⟩
  | .hbm, ⟨43, _⟩ => ⟨S_, .i1⟩
  | .hbm, ⟨44, _⟩ => ⟨S1024, .i1⟩
  | .hbm, ⟨45, _⟩ => ⟨S1024x128, .f32⟩
  | .hbm, ⟨46, _⟩ => ⟨S1024x128, .i1⟩
  | .hbm, ⟨47, _⟩ => ⟨S_, .f32⟩
  | .hbm, ⟨48, _⟩ => ⟨S1024x128, .f32⟩
  | .hbm, ⟨49, _⟩ => ⟨S1024x128, .f32⟩
  | .hbm, ⟨50, _⟩ => ⟨S1024x128, .f32⟩
  | .hbm, ⟨51, _⟩ => ⟨S1024x100000, .f32⟩
  | .local _ .vmem, ⟨0, _⟩ => ⟨S1024x128, .f32⟩
  | .local _ .vmem, ⟨1, _⟩ => ⟨S3072x128, .f32⟩
  | .local _ .vmem, ⟨2, _⟩ => ⟨S3072x128, .f32⟩
  | .local _ .vmem, ⟨3, _⟩ => ⟨S1024x3072, .f32⟩
  | .local _ .vmem, ⟨4, _⟩ => ⟨S1024x3072, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x128_0 : S1024.BroadcastsInDim S1024x128 (![0] : Fin 1 → Fin S1024x128.rank)
  bcast_S_S1024x128 : S_.BroadcastsInDim S1024x128 (![] : Fin 0 → Fin S1024x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S3072x128_S3072x128_0_0 : ∀ a, (![0, 0] : Fin 2 → Nat) a + S3072x128.size a ≤ S3072x128.size a
  h_S3072x128 : 0 < S3072x128.numel
  inb_S1024x3072_S1024x3072_0_0 : ∀ a, (![0, 0] : Fin 2 → Nat) a + S1024x3072.size a ≤ S1024x3072.size a
  h_S1024x3072 : 0 < S1024x3072.numel
  gather_S100000x128_S1024x1_S1024x128_1_0_n_n_0_1_1128_wf : GatherDims.WF S100000x128 S1024x1 S1024x128 [1] [0] [] [0] [] 1 ![1, 128]
  gather_S18x128_S1024x1_S1024x128_1_0_n_n_0_1_1128_wf : GatherDims.WF S18x128 S1024x1 S1024x128 [1] [0] [] [0] [] 1 ![1, 128]
  dot_S1024x128_S3072x128_S1024x3072_1_1_0_0_n_n_wf : DotDims.WF S1024x128 S3072x128 S1024x3072 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3072x128.size a < S100000x128.size a
  hwx0_1 : ∀ i : grid0.Coords, EltTy.bits .f32 = 32 ∨ (Rect.unit (s := S100000x128) (fun a => cc0_transform_1 i a * S3072x128.size a) (fun a => (Pipeline.Clip.of (cc0_transform_1 i a) (S3072x128.size a) (S100000x128.size a)).extent (S3072x128.size a)) fun a => Pipeline.Clip.inb (Pipeline.Clip.ok_of (hstart0_1 i a))).WholeWords (EltTy.packing .f32)
  hwxs0_1 : ∀ i : grid0.Coords, EltTy.bits .f32 = 32 ∨ (Rect.unit (s := S3072x128) (fun _ => 0) (fun a => (Pipeline.Clip.of (cc0_transform_1 i a) (S3072x128.size a) (S100000x128.size a)).extent (S3072x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x3072.size a < S1024x100000.size a
  hwx0_2 : ∀ i : grid0.Coords, EltTy.bits .f32 = 32 ∨ (Rect.unit (s := S1024x100000) (fun a => cc0_transform_2 i a * S1024x3072.size a) (fun a => (Pipeline.Clip.of (cc0_transform_2 i a) (S1024x3072.size a) (S1024x100000.size a)).extent (S1024x3072.size a)) fun a => Pipeline.Clip.inb (Pipeline.Clip.ok_of (hstart0_2 i a))).WholeWords (EltTy.packing .f32)
  hwxs0_2 : ∀ i : grid0.Coords, EltTy.bits .f32 = 32 ∨ (Rect.unit (s := S1024x3072) (fun _ => 0) (fun a => (Pipeline.Clip.of (cc0_transform_2 i a) (S1024x3072.size a) (S1024x100000.size a)).extent (S1024x3072.size a)) fun a => (Nat.zero_add _).trans_le (Pipeline.Clip.extent_le (Pipeline.Clip.ok_of (hstart0_2 i a)))).WholeWords (EltTy.packing .f32)

variable [Facts₀]

def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf
def gather_S18x128_S1024x1_S1024x128_1_0_n_n_0_1_1128 : GatherDims S18x128 S1024x1 S1024x128 where
  offsetDims := [1]
  collapsedSliceDims := [0]
  operandBatchingDims := []
  startIndicesBatchingDims := []
  startIndexMap := [0]
  indexVectorDim := 1
  sliceSizes := ![1, 128]
  wf := gather_S18x128_S1024x1_S1024x128_1_0_n_n_0_1_1128_wf
def dot_S1024x128_S3072x128_S1024x3072_1_1_0_0_n_n : DotDims S1024x128 S3072x128 S1024x3072 where
  lhsContracting := [1]
  rhsContracting := [1]
  lhsNonContracting := [0]
  rhsNonContracting := [0]
  lhsBatch := []
  rhsBatch := []
  wf := dot_S1024x128_S3072x128_S1024x3072_1_1_0_0_n_n_wf

abbrev win0_0 : Pipeline.Window sig grid0 :=
  Pipeline.Window.ofSpec (Memref.whole main_v2) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S3072x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v3) S1024x3072.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024 : Shape := ⟨1, ![1024]⟩
abbrev S100000x128 : Shape := ⟨2, ![100000, 128]⟩
abbrev S18x128 : Shape := ⟨2, ![18, 128]⟩
abbrev S_ : Shape := ⟨0, ![]⟩
abbrev S1024x1 : Shape := ⟨2, ![1024, 1]⟩
abbrev S1024x128 : Shape := ⟨2, ![1024, 128]⟩
abbrev S1024x100000 : Shape := ⟨2, ![1024, 100000]⟩

abbrev nBuf : Space → Nat
  | .hbm => 24
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x128, .f32⟩
  | .hbm, ⟨3, _⟩ => ⟨S18x128, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x128, .f32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1024x128, .f32⟩
  | .hbm, ⟨22, _⟩ => ⟨S1024x128, .f32⟩
  | .hbm, ⟨23, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  gather_S100000x128_S1024x1_S1024x128_1_0_n_n_0_1_1128_wf : GatherDims.WF S100000x128 S1024x1 S1024x128 [1] [0] [] [0] [] 1 ![1, 128]
  gather_S18x128_S1024x1_S1024x128_1_0_n_n_0_1_1128_wf : GatherDims.WF S18x128 S1024x1 S1024x128 [1] [0] [] [0] [] 1 ![1, 128]
  dot_S1024x128_S100000x128_S1024x100000_1_1_0_0_n_n_wf : DotDims.WF S1024x128 S100000x128 S1024x100000 [1] [1] [0] [0] [] []

variable [Facts₀]

def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf
def gather_S18x128_S1024x1_S1024x128_1_0_n_n_0_1_1128 : GatherDims S18x128 S1024x1 S1024x128 where
  offsetDims := [1]
  collapsedSliceDims := [0]
  operandBatchingDims := []
  startIndicesBatchingDims := []
  startIndexMap := [0]
  indexVectorDim := 1
  sliceSizes := ![1, 128]
  wf := gather_S18x128_S1024x1_S1024x128_1_0_n_n_0_1_1128_wf
def dot_S1024x128_S100000x128_S1024x100000_1_1_0_0_n_n : DotDims S1024x128 S100000x128 S1024x100000 where
  lhsContracting := [1]
  rhsContracting := [1]
  lhsNonContracting := [0]
  rhsNonContracting := [0]
  lhsBatch := []
  rhsBatch := []
  wf := dot_S1024x128_S100000x128_S1024x100000_1_1_0_0_n_n_wf

class Facts : Prop extends Facts₀ where

variable [Facts]
-- ==== Proof.KernelFrame.lean ====
/-
  The pipelined product, run: one pallas_call on a grid of 33 points multiplies the resident [1024,128] left
  operand with one [3072,128] block of the embedding table per point (contracting the 128 columns of both) and
  writes the [1024,3072] product to columns 3072·t … of the [1024,100000] result. 33 blocks of 3072 rows are
  101376 rows: the last block overhangs the table by 1376 rows, so its fetch leaves the last 1376 rows of the
  staging buffer at words nothing names, and the last write-back writes only the 1696 columns inside the result.

  This module is stated at any float instance. It holds: the body's triple (two whole loads, a dead load, one
  whole store of the product); the proof data (after the body the left operand's buffer holds its block, the
  table's buffer the table's block filled out past the array's end with a word nothing reads, the result's
  buffer their product); what the body finds at each point; the body obligation in the form that says nothing
  of the result's buffer (an entry of a product computed from unnamed rows is itself unnamed, and at the
  word-level instance the matrix unit's result is not a column-by-column function of its right operand, so the
  result's contents are left out of the frame altogether); the run; and the frame — the program terminates on
  every weakly fair execution, faults nowhere, and leaves its four argument arrays as it found them.
-/
import proofs.«401116_j76965813944901_3_alg».proof.Proof.Gen.Kernel.Frame
import proofs.«401116_j76965813944901_3_alg».proof.Proof.Gen.Kernel.Skeleton
import Idealize.ShloMosaic.Lib.Pipeline.FrameBody
import Idealize.ShloMosaic.Lib.Pipeline.Kit
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each of the three buffers whole, at offset zero -/

abbrev rA : Rect S1024x128 := Rect.unit (s := S1024x128) ![0, 0] S1024x128.size inb_S1024x128_S1024x128_0_0
abbrev rB : Rect S3072x128 := Rect.unit (s := S3072x128) ![0, 0] S3072x128.size inb_S3072x128_S3072x128_0_0
abbrev rO : Rect S1024x3072 := Rect.unit (s := S1024x3072) ![0, 0] S1024x3072.size inb_S1024x3072_S1024x3072_0_0

/-- What the body leaves in the result's staging buffer when the left operand's buffer holds `x0` and the
    table block's buffer holds `x1`: its one whole store, the product of the two. -/
def outO (x0 : Vec F S1024x128 .f32) (x1 : Vec F S3072x128 .f32) : Vec F S1024x3072 .f32 :=
  View.canon [⟨rO, k0_pay1 (View.ld x0 rA) (View.ld x1 rB)⟩]

/-- The one store covers the buffer. -/
theorem coverO (p0 : Vec F S1024x3072 .f32) (y : S1024x3072.Idx) :
    ∃ pc ∈ ([⟨rO, p0⟩] : List (View.Piece (Elt F) S1024x3072 .f32)), y ∈ pc.1.set :=
  View.cover_of_tiled [⟨rO, p0⟩] S1024x3072.size (by rfl) y

set_option maxHeartbeats 1000000 in
/-- The body on whole staging memrefs: it loads the two operands' buffers (and, dead, the result's), and stores
    their product over the whole result buffer; the operands' buffers are left as found. -/
theorem sound_kernel (c : Dev nD) (E : Set ℕ) (i : grid0.Coords) (arg1 : Memref sig .tc .vmem S1024x128 .f32) (harg1 : arg1.IsWhole) (arg2 : Memref sig .tc .vmem S3072x128 .f32) (harg2 : arg2.IsWhole) (arg3 : Memref sig .tc .vmem S1024x3072 .f32) (harg3 : arg3.IsWhole)
    (x0 : Vec F S1024x128 .f32) (x1 : Vec F S3072x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outO x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-! ## The pipeline's proof data -/

/-- The table's block at point `t` filled out to the whole staging buffer: past the array's last row (only the
    last point's block overhangs it) the zero word, which nothing reads. -/
def bfill (c : Dev nD) (t : Fin cfg0.N) : Vec F S3072x128 .f32 :=
  win0_1.fill (grid0.coords t) (fun _ => Scalar.ofBits .f32 0#32) (iblk m c 1 t)

/-- After the body at point `t`: the left operand's buffer holds its (one, whole) block, the table's buffer the
    table's block at `t`, and the result's buffer their product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => bfill m c t
    | ⟨2, _⟩ => outO (iblk m c 0 t) (bfill m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = bfill m c t := by dsimp only [dats]
theorem after0_2 (c : Dev nD) (t : Fin cfg0.N) : (dats m 0 c).after 2 t = outO (iblk m c 0 t) (bfill m c t) := by dsimp only [dats]

/-- The left operand's buffer holds its block at every point, fetched there (the first point) or not. -/
theorem before0_0 (c : Dev nD) (t : Fin cfg0.N) (d) : (dats m 0 c).before 0 t d = iblk m c 0 t :=
  before0_0_of m (dats m 0 c) (A_eq m c 0) (after0_0 m c) t d

/-- The table's buffer is fetched at every point: it holds the block at `t` on the rows inside the array, and on
    the rows past its end whatever `d` the overwrite before the fetch left. -/
theorem before0_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq]

/-- The result's buffer is written back at every point, so the body finds it at contents nothing names. -/
theorem before0_2 (c : Dev nD) (t : Fin cfg0.N) (d) : (dats m 0 c).before 2 t d = d :=
  (dats m 0 c).before_out_reset 2 rfl t (by
    by_cases ht : t.val = 0
    · exact .inl ht
    · exact .inr ⟨ht, flush0_2 _⟩) d

/-! ## The body obligation when nothing is said of what the result's buffer holds -/

/-- The one window whose buffer's contents the frame does not name: the result's. -/
def forgets : Fin 3 → Bool := fun w => w.val == 2

/-- What the body is called with at point `t`, -/
def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: the left operand's buffer at its block, the table's at its block on the rows inside the
    array, the result's at anything. -/
def bodyPostF (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ X, owns (c : Thread nD τ) (st0_2 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%X2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show (cfg0.win 1).cut (cfg0.grid.coords t) (bfill m c t) = iblk m c 1 t from win0_1.cut_fill _ _ _]
    iexact H1
  · iexists _; iexact H2

theorem body_obligationF (c : Dev nD) :
    BodyObligationLoose (dats (F := F) m 0 c) (defs₀ (F := F)) Variants.none () Set.univ forgets := fun t => by
  rw [bigSep_W0, bigSep_W0]
  exact sound_bodyF m c t

/-! ## The run and the frame -/

set_option backward.isDefEq.respectTransparency.types false in
/-- Every weakly fair execution of @main terminates; the pipeline's input arrays end as the region found them and
    every other unscoped buffer as well (nothing is said of the result array). -/
theorem run_forget : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligationF m c).toRForget) (hshare := fun c => ((dats m 0 c).toRForget forgets).share_full fun _ => rfl)
    (howed := fun _ _ => rfl) (V := V m) (hmain := hmain m Variants.none) (hA := A_eq m) (hΦ := fun _ _ => rfl)

/-- The frame: the program runs to the end and its four argument arrays end unchanged — the two index vectors and
    the relation table are never staged, the embedding table is an input window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((A_eq m c 1).trans (V_main_arg2 m c)),
      ((h c).2 main_arg3 (Pipeline.mem_restRefs_of main_arg3 (by decide) (by decide))).trans (V_main_arg3 m c)⟩) (run_forget m ρ)

end Cert.Kernel.Body

end
-- ==== Proof.KernelIdealFrame.lean ====
/-
  The pipelined product, run: one pallas_call on a grid of 33 points multiplies the resident [1024,128] left
  operand with one [3072,128] block of the embedding table per point (contracting the 128 columns of both) and
  writes the [1024,3072] product to columns 3072·t … of the [1024,100000] result. 33 blocks of 3072 rows are
  101376 rows: the last block overhangs the table by 1376 rows, so its fetch leaves the last 1376 rows of the
  staging buffer at words nothing names, and the last write-back writes only the 1696 columns inside the result.

  This module is stated at any float instance. It holds: the body's triple (two whole loads, a dead load, one
  whole store of the product); the proof data (after the body the left operand's buffer holds its block, the
  table's buffer the table's block filled out past the array's end with a word nothing reads, the result's
  buffer their product); what the body finds at each point; the body obligation in the form that says nothing
  of the result's buffer (an entry of a product computed from unnamed rows is itself unnamed, and at the
  word-level instance the matrix unit's result is not a column-by-column function of its right operand, so the
  result's contents are left out of the frame altogether); the run; and the frame — the program terminates on
  every weakly fair execution, faults nowhere, and leaves its four argument arrays as it found them.
-/
import proofs.«401116_j76965813944901_3_alg».proof.Proof.Gen.KernelIdeal.Frame
import proofs.«401116_j76965813944901_3_alg».proof.Proof.Gen.KernelIdeal.Skeleton
import Idealize.ShloMosaic.Lib.Pipeline.FrameBody
import Idealize.ShloMosaic.Lib.Pipeline.Kit
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each of the three buffers whole, at offset zero -/

abbrev rA : Rect S1024x128 := Rect.unit (s := S1024x128) ![0, 0] S1024x128.size inb_S1024x128_S1024x128_0_0
abbrev rB : Rect S3072x128 := Rect.unit (s := S3072x128) ![0, 0] S3072x128.size inb_S3072x128_S3072x128_0_0
abbrev rO : Rect S1024x3072 := Rect.unit (s := S1024x3072) ![0, 0] S1024x3072.size inb_S1024x3072_S1024x3072_0_0

/-- What the body leaves in the result's staging buffer when the left operand's buffer holds `x0` and the
    table block's buffer holds `x1`: its one whole store, the product of the two. -/
def outO (x0 : Vec F S1024x128 .f32) (x1 : Vec F S3072x128 .f32) : Vec F S1024x3072 .f32 :=
  View.canon [⟨rO, k0_pay1 (View.ld x0 rA) (View.ld x1 rB)⟩]

/-- The one store covers the buffer. -/
theorem coverO (p0 : Vec F S1024x3072 .f32) (y : S1024x3072.Idx) :
    ∃ pc ∈ ([⟨rO, p0⟩] : List (View.Piece (Elt F) S1024x3072 .f32)), y ∈ pc.1.set :=
  View.cover_of_tiled [⟨rO, p0⟩] S1024x3072.size (by rfl) y

set_option maxHeartbeats 1000000 in
/-- The body on whole staging memrefs: it loads the two operands' buffers (and, dead, the result's), and stores
    their product over the whole result buffer; the operands' buffers are left as found. -/
theorem sound_kernel (c : Dev nD) (E : Set ℕ) (i : grid0.Coords) (arg1 : Memref sig .tc .vmem S1024x128 .f32) (harg1 : arg1.IsWhole) (arg2 : Memref sig .tc .vmem S3072x128 .f32) (harg2 : arg2.IsWhole) (arg3 : Memref sig .tc .vmem S1024x3072 .f32) (harg3 : arg3.IsWhole)
    (x0 : Vec F S1024x128 .f32) (x1 : Vec F S3072x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outO x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-! ## The pipeline's proof data -/

/-- The table's block at point `t` filled out to the whole staging buffer: past the array's last row (only the
    last point's block overhangs it) the zero word, which nothing reads. -/
def bfill (c : Dev nD) (t : Fin cfg0.N) : Vec F S3072x128 .f32 :=
  win0_1.fill (grid0.coords t) (fun _ => Scalar.ofBits .f32 0#32) (iblk m c 1 t)

/-- After the body at point `t`: the left operand's buffer holds its (one, whole) block, the table's buffer the
    table's block at `t`, and the result's buffer their product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => bfill m c t
    | ⟨2, _⟩ => outO (iblk m c 0 t) (bfill m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = bfill m c t := by dsimp only [dats]
theorem after0_2 (c : Dev nD) (t : Fin cfg0.N) : (dats m 0 c).after 2 t = outO (iblk m c 0 t) (bfill m c t) := by dsimp only [dats]

/-- The left operand's buffer holds its block at every point, fetched there (the first point) or not. -/
theorem before0_0 (c : Dev nD) (t : Fin cfg0.N) (d) : (dats m 0 c).before 0 t d = iblk m c 0 t :=
  before0_0_of m (dats m 0 c) (A_eq m c 0) (after0_0 m c) t d

/-- The table's buffer is fetched at every point: it holds the block at `t` on the rows inside the array, and on
    the rows past its end whatever `d` the overwrite before the fetch left. -/
theorem before0_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq]

/-- The result's buffer is written back at every point, so the body finds it at contents nothing names. -/
theorem before0_2 (c : Dev nD) (t : Fin cfg0.N) (d) : (dats m 0 c).before 2 t d = d :=
  (dats m 0 c).before_out_reset 2 rfl t (by
    by_cases ht : t.val = 0
    · exact .inl ht
    · exact .inr ⟨ht, flush0_2 _⟩) d

/-! ## The body obligation when nothing is said of what the result's buffer holds -/

/-- The one window whose buffer's contents the frame does not name: the result's. -/
def forgets : Fin 3 → Bool := fun w => w.val == 2

/-- What the body is called with at point `t`, -/
def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: the left operand's buffer at its block, the table's at its block on the rows inside the
    array, the result's at anything. -/
def bodyPostF (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ X, owns (c : Thread nD τ) (st0_2 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%X2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show (cfg0.win 1).cut (cfg0.grid.coords t) (bfill m c t) = iblk m c 1 t from win0_1.cut_fill _ _ _]
    iexact H1
  · iexists _; iexact H2

theorem body_obligationF (c : Dev nD) :
    BodyObligationLoose (dats (F := F) m 0 c) (defs₀ (F := F)) Variants.none () Set.univ forgets := fun t => by
  rw [bigSep_W0, bigSep_W0]
  exact sound_bodyF m c t

/-! ## The run and the frame -/

set_option backward.isDefEq.respectTransparency.types false in
/-- Every weakly fair execution of @main terminates; the pipeline's input arrays end as the region found them and
    every other unscoped buffer as well (nothing is said of the result array). -/
theorem run_forget : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligationF m c).toRForget) (hshare := fun c => ((dats m 0 c).toRForget forgets).share_full fun _ => rfl)
    (howed := fun _ _ => rfl) (V := V m) (hmain := hmain m Variants.none) (hA := A_eq m) (hΦ := fun _ _ => rfl)

/-- The frame: the program runs to the end and its four argument arrays end unchanged — the two index vectors and
    the relation table are never staged, the embedding table is an input window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((A_eq m c 1).trans (V_main_arg2 m c)),
      ((h c).2 main_arg3 (Pipeline.mem_restRefs_of main_arg3 (by decide) (by decide))).trans (V_main_arg3 m c)⟩) (run_forget m ρ)

end Cert.KernelIdeal.Body

end
-- ==== Proof.KernelIdealValue.lean ====
/-
  The pipelined product, read: at the ideal instance the result array ends holding, at row b and column n, the sum
  over the 128 columns e of left(b, e) · table(n, e) — the left operand and the embedding table as the region finds
  them. A matrix product's column n depends on row n of the right operand only; the rows of the last block's
  staging buffer past the table's end therefore reach only the columns of the last product past the result's
  end, and the cut write-back drops exactly those: what each point writes back is the product's block whatever
  those rows held.
-/
import proofs.«401116_j76965813944901_3_alg».proof.Proof.KernelIdealFrame
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The body's product at an index -/

theorem lhsK_0 (i : S1024x3072.Idx) (q : dot_S1024x128_S3072x128_S1024x3072_1_1_0_0_n_n.contr.Idx) :
    (dot_S1024x128_S3072x128_S1024x3072_1_1_0_0_n_n.lhsIdx i q 0).val = (i 0).val := by
  unfold DotDims.lhsIdx
  rw [dif_neg (show ¬(0 : Fin S1024x128.rank) ∈ dot_S1024x128_S3072x128_S1024x3072_1_1_0_0_n_n.lhsBatch by decide), dif_pos (show (0 : Fin S1024x128.rank) ∈ dot_S1024x128_S3072x128_S1024x3072_1_1_0_0_n_n.lhsNonContracting by decide)]
  rfl
theorem lhsK_1 (i : S1024x3072.Idx) (q : dot_S1024x128_S3072x128_S1024x3072_1_1_0_0_n_n.contr.Idx) :
    (dot_S1024x128_S3072x128_S1024x3072_1_1_0_0_n_n.lhsIdx i q 1).val = (q ⟨0, by decide⟩).val :=
  dot_S1024x128_S3072x128_S1024x3072_1_1_0_0_n_n.lhsIdx_val_of_single rfl i q
theorem rhsK_0 (i : S1024x3072.Idx) (q : dot_S1024x128_S3072x128_S1024x3072_1_1_0_0_n_n.contr.Idx) :
    (dot_S1024x128_S3072x128_S1024x3072_1_1_0_0_n_n.rhsIdx i q 0).val = (i 1).val := by
  unfold DotDims.rhsIdx
  rw [dif_neg (show ¬(0 : Fin S3072x128.rank) ∈ dot_S1024x128_S3072x128_S1024x3072_1_1_0_0_n_n.rhsBatch by decide), dif_pos (show (0 : Fin S3072x128.rank) ∈ dot_S1024x128_S3072x128_S1024x3072_1_1_0_0_n_n.rhsNonContracting by decide)]
  rfl
theorem rhsK_1 (i : S1024x3072.Idx) (q : dot_S1024x128_S3072x128_S1024x3072_1_1_0_0_n_n.contr.Idx) :
    (dot_S1024x128_S3072x128_S1024x3072_1_1_0_0_n_n.rhsIdx i q 1).val = (q ⟨0, by decide⟩).val :=
  dot_S1024x128_S3072x128_S1024x3072_1_1_0_0_n_n.rhsIdx_val_of_single rfl i q

/-- Row `i 0`, column `k` of the left operand; -/
abbrev lidxK (i : S1024x3072.Idx) (k : Fin 128) : S1024x128.Idx := fun a => match a with
  | ⟨0, _⟩ => ⟨(i 0).val, (i 0).isLt⟩
  | ⟨1, _⟩ => ⟨k.val, k.isLt⟩
/-- row `i 1`, column `k` of the table's block. -/
abbrev ridxK (i : S1024x3072.Idx) (k : Fin 128) : S3072x128.Idx := fun a => match a with
  | ⟨0, _⟩ => ⟨(i 1).val, (i 1).isLt⟩
  | ⟨1, _⟩ => ⟨k.val, k.isLt⟩

theorem hz : (![0, 0] : Fin 2 → Nat) = fun _ => 0 := funext fun a => by fin_cases a <;> rfl

/-- At the ideal instance the body's result at (b, n) is the sum over e of x0(b, e) · x1(n, e): the two changes of
    format are the identity, the accumulator is zero. -/
theorem outO_apply (x0 : Vec Ideal S1024x128 .f32) (x1 : Vec Ideal S3072x128 .f32) (i : S1024x3072.Idx) :
    outO (F := Ideal) x0 x1 i = ∑ k : Fin 128, x0 (lidxK i k) * x1 (ridxK i k) := by
  unfold outO
  rw [View.canon_unit_zero hz]
  simp only [View.ld_unit_zero (S := S1024x128) hz, View.ld_unit_zero (S := S3072x128) hz]
  unfold k0_pay1
  refine (Ideal.matmul_constant_zero_apply dot_S1024x128_S3072x128_S1024x3072_1_1_0_0_n_n none _ _ i).trans ?_
  rw [← Equiv.sum_comp (ValueIdx.contrEquiv1 dot_S1024x128_S3072x128_S1024x3072_1_1_0_0_n_n 128 rfl rfl).symm]
  refine Finset.sum_congr rfl fun k _ => ?_
  have hk := ValueIdx.contrEquiv1_symm_val dot_S1024x128_S3072x128_S1024x3072_1_1_0_0_n_n 128 rfl rfl k
  have el : dot_S1024x128_S3072x128_S1024x3072_1_1_0_0_n_n.lhsIdx i ((ValueIdx.contrEquiv1 dot_S1024x128_S3072x128_S1024x3072_1_1_0_0_n_n 128 rfl rfl).symm k) = lidxK i k := funext fun a => Fin.ext (by
    match a with
    | ⟨0, _⟩ => exact lhsK_0 _ _
    | ⟨1, _⟩ => exact (lhsK_1 _ _).trans hk)
  have er : dot_S1024x128_S3072x128_S1024x3072_1_1_0_0_n_n.rhsIdx i ((ValueIdx.contrEquiv1 dot_S1024x128_S3072x128_S1024x3072_1_1_0_0_n_n 128 rfl rfl).symm k) = ridxK i k := funext fun a => Fin.ext (by
    match a with
    | ⟨0, _⟩ => exact rhsK_0 _ _
    | ⟨1, _⟩ => exact (rhsK_1 _ _).trans hk)
  rw [el, er]
  rw [shapeCast_self]
  rfl

variable (m : (ℓ : Loc nD τ sig) → Buf (Elt Ideal) ℓ) (ρ : Dev nD → PrngReg)

/-! ## The index maps and the cuts, over the 33 points -/

/-- The left operand's block is always block (0, 0); the table's block at point `t` is block (t, 0), the result's
    block (0, t); the table's block is cut to the rows inside the table and the result's to the columns inside the
    result, the same number of them: 3072 at the first 32 points, 1696 at the last. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_1.xsize (grid0.coords t) (0 : Fin 2) = min 3072 (100000 - t.val * 3072)
    ∧ win0_1.xsize (grid0.coords t) (1 : Fin 2) = 128
    ∧ win0_2.xsize (grid0.coords t) (0 : Fin 2) = 1024
    ∧ win0_2.xsize (grid0.coords t) (1 : Fin 2) = min 3072 (100000 - t.val * 3072) :=
  (by decide +kernel : ∀ t : Fin grid0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_1.xsize (grid0.coords t) (0 : Fin 2) = min 3072 (100000 - t.val * 3072)
    ∧ win0_1.xsize (grid0.coords t) (1 : Fin 2) = 128
    ∧ win0_2.xsize (grid0.coords t) (0 : Fin 2) = 1024
    ∧ win0_2.xsize (grid0.coords t) (1 : Fin 2) = min 3072 (100000 - t.val * 3072))

/-- A column of the result's block inside the result is a row of the table's block inside the table: entry
    (column `j 1`, `k`) of the part of the table's block the fetch fills. -/
def rowOf (t : Fin cfg0.N) (j : (win0_2.xblock (grid0.coords t)).Idx) (k : Fin 128) : (win0_1.xblock (grid0.coords t)).Idx :=
  fun a => match a with
    | ⟨0, _⟩ => ⟨(j (1 : Fin 2)).val, by
        have hj : (j (1 : Fin 2)).val < win0_2.xsize (grid0.coords t) (1 : Fin 2) := (j 1).isLt
        obtain ⟨-, -, -, -, -, -, e6, -, -, e9⟩ := idx_facts t
        show _ < win0_1.xsize (grid0.coords t) (0 : Fin 2); omega⟩
    | ⟨1, _⟩ => ⟨k.val, by
        obtain ⟨-, -, -, -, -, -, -, e7, -, -⟩ := idx_facts t
        have := k.isLt
        show _ < win0_1.xsize (grid0.coords t) (1 : Fin 2); omega⟩

theorem ridxK_xinj (t : Fin cfg0.N) (j : (win0_2.xblock (grid0.coords t)).Idx) (k : Fin 128) :
    ridxK (win0_2.xinj (grid0.coords t) j) k = win0_1.xinj (grid0.coords t) (rowOf t j k) :=
  funext fun a => Fin.ext (by
    match a with
    | ⟨0, _⟩ => rfl
    | ⟨1, _⟩ => rfl)

/-- The columns of the product inside the result do not depend on what the table's buffer holds past the table's end. -/
theorem cut_outO_fill (t : Fin cfg0.N) (x0 : Vec Ideal S1024x128 .f32)
    (b : ((cfg0.win 1).xblock (cfg0.grid.coords t)).Idx → Elt Ideal (cfg0.win 1).elt) (d d' : Vec Ideal S3072x128 .f32) :
    win0_2.cut (grid0.coords t) (outO (F := Ideal) x0 (win0_1.fill (grid0.coords t) d b))
      = win0_2.cut (grid0.coords t) (outO (F := Ideal) x0 (win0_1.fill (grid0.coords t) d' b)) := by
  funext j
  show outO (F := Ideal) x0 _ (win0_2.xinj (grid0.coords t) j) = outO (F := Ideal) x0 _ (win0_2.xinj (grid0.coords t) j)
  rw [outO_apply, outO_apply]
  refine Finset.sum_congr rfl fun k _ => ?_
  rw [ridxK_xinj, win0_1.fill_xinj, win0_1.fill_xinj]

/-- So the product computed from a buffer filled out with `d` is, on the columns inside the result, the product
    computed from the buffer filled out with `d'`. -/
theorem fill_outO (t : Fin cfg0.N) (x0 : Vec Ideal S1024x128 .f32)
    (b : ((cfg0.win 1).xblock (cfg0.grid.coords t)).Idx → Elt Ideal (cfg0.win 1).elt) (d d' : Vec Ideal S3072x128 .f32) :
    win0_2.fill (grid0.coords t) (outO (F := Ideal) x0 (win0_1.fill (grid0.coords t) d b))
        (win0_2.cut (grid0.coords t) (outO (F := Ideal) x0 (win0_1.fill (grid0.coords t) d' b)))
      = outO (F := Ideal) x0 (win0_1.fill (grid0.coords t) d b) :=
  win0_2.fill_congr_cut (grid0.coords t) (cut_outO_fill t x0 b d d')

/-! ## The body obligation with the result's buffer named -/

def bodyPreX (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- The table's and the result's buffers are stated on the part their transfers move only. -/
def bodyPostX (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare (win0_2.fill (grid0.coords t) d (win0_2.cut (grid0.coords t) ((dats m 0 c).after 2 t)))))

theorem sound_bodyX (c : Dev nD) (t : Fin cfg0.N) :
    bodyPreX m c t ⊢ wp frame (wpE (defs₀ (F := Ideal)) Variants.none c none) Set.univ (bodyAt0 t) (fun _ => bodyPostX m c t) := by
  unfold bodyPreX bodyPostX bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show (cfg0.win 1).cut (cfg0.grid.coords t) (bfill m c t) = iblk m c 1 t from win0_1.cut_fill _ _ _]
    iexact H1
  · iexists (outO (iblk m c 0 t) (win0_1.fill (grid0.coords t) d1 (iblk m c 1 t)))
    unfold bfill
    rw [fill_outO t (iblk m c 0 t) (iblk m c 1 t) d1 _]
    iexact H2

theorem body_obligationX (c : Dev nD) :
    BodyObligationLoose (dats (F := Ideal) m 0 c) (defs₀ (F := Ideal)) Variants.none () Set.univ := fun t => by
  rw [bigSep_W0, bigSep_W0]
  exact sound_bodyX m c t

set_option backward.isDefEq.respectTransparency.types false in
/-- The run with every array of the pipeline named: the result array at what the write-backs, in point order, left. -/
theorem run_exact : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligationX m c) (hshare := fun c => (dats m 0 c).share_full fun _ => rfl)
    (howed := fun _ _ => rfl) (V := V m) (hmain := hmain m Variants.none) (hA := A_eq m) (hΦ := fun _ _ => rfl)

/-! ## The result array -/

/-- Row `i 0`, column `k` of the left operand; -/
abbrev lidxG (i : S1024x100000.Idx) (k : Fin 128) : S1024x128.Idx := fun a => match a with
  | ⟨0, _⟩ => ⟨(i 0).val, (i 0).isLt⟩
  | ⟨1, _⟩ => ⟨k.val, k.isLt⟩
/-- row `i 1`, column `k` of the table. -/
abbrev ridxG (i : S1024x100000.Idx) (k : Fin 128) : S100000x128.Idx := fun a => match a with
  | ⟨0, _⟩ => ⟨(i 1).val, (i 1).isLt⟩
  | ⟨1, _⟩ => ⟨k.val, k.isLt⟩

/-- The whole product: entry (b, n) is the sum over e of A(b, e) · E(n, e). -/
def G (A : S1024x128.Idx → EReal) (E : S100000x128.Idx → EReal) : S1024x100000.Idx → EReal := fun i =>
  ∑ k : Fin 128, A (lidxG i k) * E (ridxG i k)

/-- What point `t` writes back is block `t` of the whole product of the left operand and the table as the region
    finds them: row b of the left operand's block is row b of the left operand, and row n of the part of the table's
    block inside the table is row 3072·t + n of the table, where column n of the result's block lands. -/
theorem flushed_eq (c : Dev nD) (t : Fin cfg0.N) :
    (dats m 0 c).flushed 2 t = ((cfg0.win 2).blk t).view.read (Elt Ideal) (G (V m c main_v2) (V m c main_arg2)) := by
  show (cfg0.win 2).cut (grid0.coords t) ((dats m 0 c).after 2 t) = _
  rw [after0_2]
  obtain ⟨e0, e1, e2, e3, e4, e5, e6, e7, e8, e9⟩ := idx_facts t
  funext j
  show outO (F := Ideal) (iblk m c 0 t) (bfill m c t) (win0_2.xinj (grid0.coords t) j)
    = G (V m c main_v2) (V m c main_arg2) (((cfg0.win 2).blk t).view.emb j)
  rw [outO_apply]
  unfold G
  refine Finset.sum_congr rfl fun k _ => ?_
  have hl : iblk m c 0 t (lidxK (win0_2.xinj (grid0.coords t) j) k)
      = V m c main_v2 (lidxG (((cfg0.win 2).blk t).view.emb j) k) := by
    show V m c main_v2 (((cfg0.win 0).blk t).view.emb (lidxK (win0_2.xinj (grid0.coords t) j) k)) = _
    refine congrArg _ ?_
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 128 + 1 * k.val = k.val; omega
  have hr : bfill m c t (ridxK (win0_2.xinj (grid0.coords t) j) k)
      = V m c main_arg2 (ridxG (((cfg0.win 2).blk t).view.emb j) k) := by
    rw [ridxK_xinj]
    unfold bfill
    rw [win0_1.fill_xinj]
    show V m c main_arg2 (((cfg0.win 1).blk t).view.emb (rowOf t j k)) = _
    refine congrArg _ ?_
    funext a; apply Fin.ext
    match a with
    | ⟨0, _⟩ => show win0_1.index t (0 : Fin 2) * 3072 + 1 * (j 1).val = win0_2.index t (1 : Fin 2) * 3072 + 1 * (j 1).val; omega
    | ⟨1, _⟩ => show win0_1.index t (1 : Fin 2) * 128 + 1 * k.val = k.val; omega
  rw [hl, hr]

/-- An index of the result is in point `t`'s block iff each coordinate is in the block's cut range on its axis. -/
theorem mem_blk (t : Fin cfg0.N) (i : S1024x100000.Idx) :
    i ∈ ((cfg0.win 2).blk t).view.set ↔ ∀ a : Fin 2, win0_2.index t a * S1024x3072.size a ≤ (i a).val ∧ (i a).val < win0_2.index t a * S1024x3072.size a + win0_2.xsize (grid0.coords t) a := by
  show i ∈ ((View.whole main_v3).slice (win0_2.rect t)).set ↔ _
  rw [View.set_slice_whole, Rect.mem_set_unit]
  exact Iff.rfl

/-- Column n of the result lies in the block of point n / 3072: 32 whole blocks and the 1696 columns of the last. -/
theorem cover (i : S1024x100000.Idx) :
    ∃ t : Fin cfg0.N, (cfg0.win 2).flush t = true ∧ i ∈ ((cfg0.win 2).blk t).view.set := by
  have hi0 : (i 0).val < 1024 := (i 0).isLt
  have hi1 : (i 1).val < 100000 := (i 1).isLt
  have hN : (i 1).val / 3072 < cfg0.N := by show _ < grid0.N; rw [N_0]; omega
  refine ⟨⟨(i 1).val / 3072, hN⟩, flush0_2 _, ?_⟩
  rw [mem_blk]
  obtain ⟨e0, e1, e2, e3, e4, e5, e6, e7, e8, e9⟩ := idx_facts ⟨(i 1).val / 3072, hN⟩
  have ht : (⟨(i 1).val / 3072, hN⟩ : Fin cfg0.N).val = (i 1).val / 3072 := rfl
  intro a
  match a with
  | ⟨0, _⟩ =>
    show win0_2.index ⟨(i 1).val / 3072, hN⟩ (0 : Fin 2) * 1024 ≤ (i 0).val ∧ (i 0).val < win0_2.index ⟨(i 1).val / 3072, hN⟩ (0 : Fin 2) * 1024 + win0_2.xsize (grid0.coords ⟨(i 1).val / 3072, hN⟩) (0 : Fin 2)
    omega
  | ⟨1, _⟩ =>
    show win0_2.index ⟨(i 1).val / 3072, hN⟩ (1 : Fin 2) * 3072 ≤ (i 1).val ∧ (i 1).val < win0_2.index ⟨(i 1).val / 3072, hN⟩ (1 : Fin 2) * 3072 + win0_2.xsize (grid0.coords ⟨(i 1).val / 3072, hN⟩) (1 : Fin 2)
    omega

/-- The result array after the run is the whole product. -/
theorem final (c : Dev nD) : (dats m 0 c).arrAt 2 cfg0.N = G (V m c main_v2) (V m c main_arg2) :=
  (dats m 0 c).arrAt_eq_of_cover 2 (G (V m c main_v2) (V m c main_arg2)) (fun t _ => flushed_eq m c t) cover

/-- The run, read: the result array ends holding the product of the left operand the host operations computed and
    the embedding table; the four argument arrays end unchanged. -/
theorem run_value : θ_run defs (onTc (τ := τ) (main (F := Ideal))) ⟨m, fun _ => 0, ρ⟩ (fun r => ∀ c : Dev nD,
      r.2.mem ((c.tc : Thread nD τ).loc main_v3) = G (V m c main_v2) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).1 2).trans (final m c)).trans (by rw [V_main_arg2]),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩) (run_exact m ρ)

end Cert.KernelIdeal.Val

end
-- ==== Proof.HostPrefix.lean ====
/- The arrays the kernel's host operations leave before its one region, against the reference's: under the
   precondition's index ranges (0 ≤ batch_subj_index < 100000, 0 ≤ rel_index < 18) the [1024,128] array `combined` the
   kernel hands its region is the reference's `combined`.

   The kernel gathers rows in fill mode: after NumPy's negative wrap of the index, a row whose index falls outside
   [0, rows − 1] is replaced by NaNs; the reference gathers in clamp mode from the same wrapped index. At an index in
   range the wrap keeps the index, both range tests hold, the and-reduction over the size-one axis is 1 at every row,
   so the fill mask is all ones and the select returns the gathered row: the two products agree term for term, and no
   gather is ever read at an index. -/
import proofs.«401116_j76965813944901_3_alg».proof.Defs
import proofs.«401116_j76965813944901_3_alg».proof.Proof.Gen.KernelIdeal.Frame
import proofs.«401116_j76965813944901_3_alg».proof.Proof.Gen.ReferenceIdeal.Read
import proofs.«401116_j76965813944901_3_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value
import Idealize.ShloMosaic.Lib.StableHlo.Run

noncomputable section

namespace Cert.HostPrefix

open Idealize.ShloMosaic Idealize.ShloMosaic.TcCoe Idealize.SL.Sem Idealize.ShloMosaic.StableHlo
open Cert.KernelIdeal Cert.KernelIdeal.Gen

/-! ## One-bit words under `and` -/

/-- A left fold by `and` over one-bit words that starts at 1 and meets only 1s ends at 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a (List.mem_cons.2 (Or.inl rfl))]
    rfl

/-- A `stablehlo.reduce` by `and` of an array of 1s, from 1, is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  exact foldl_andi_one (fun n => x (s.rowMajor.symm n)) _ _ (hi _) (fun n _ => hx _)

/-! ## Signed range facts of one 32-bit word -/

/-- A word that is signed-nonnegative is not signed-negative. -/
theorem slt_zero_of_sge_zero {x : BitVec 32} (h : IntOp.cmpi .sge x 0#32 = 1#1) : IntOp.cmpi .slt x 0#32 = 0#1 := by
  have h' : (0#32 : BitVec 32).sle x = true := (Predicate.ofBool_eq_one_iff _).1 h
  have hf : x.slt 0#32 = false := by
    rw [Bool.eq_false_iff]
    intro hh
    rw [BitVec.sle_iff_toInt_le] at h'
    rw [BitVec.slt_iff_toInt_lt] at hh
    have z : (0#32 : BitVec 32).toInt = 0 := by decide
    omega
  show BitVec.ofBool (x.slt 0#32) = 0#1
  rw [hf]
  rfl

/-- Signed-below `N` is signed-at-most its predecessor `M`. -/
theorem sle_of_slt_succ {x N M : BitVec 32} (hNM : M.toInt + 1 = N.toInt) (h : IntOp.cmpi .slt x N = 1#1) :
    IntOp.cmpi .sle x M = 1#1 := by
  have h' : x.slt N = true := (Predicate.ofBool_eq_one_iff _).1 h
  rw [BitVec.slt_iff_toInt_lt] at h'
  show BitVec.ofBool (x.sle M) = 1#1
  refine (Predicate.ofBool_eq_one_iff _).2 ?_
  rw [BitVec.sle_iff_toInt_le]
  omega

/-- At an index in range, NumPy's negative wrap keeps the index, and both range tests on the result hold. -/
theorem wrapped_in_range {x : BitVec 32} (N M : BitVec 32) (h0 : IntOp.cmpi .sge x 0#32 = 1#1)
    (h1 : IntOp.cmpi .sle x M = 1#1) :
    IntOp.andi (IntOp.cmpi .sge (Scalar.select (IntOp.cmpi .slt x 0#32) (IntOp.addi x N) x) 0#32)
      (IntOp.cmpi .sle (Scalar.select (IntOp.cmpi .slt x 0#32) (IntOp.addi x N) x) M) = 1#1 := by
  rw [slt_zero_of_sge_zero h0, ValueIdx.select_zero, h0, h1]
  rfl

/-! ## `jnp.take` in fill mode, at indices in range -/

section Take

variable {T : Shape} (dims : GatherDims T S1024x1 S1024x128) (tab : FVec Ideal T .f32) (s : IVec S1024 32) (N M : BitVec 32)

/-- The start indices: the index vector after NumPy's negative wrap, as a column. -/
abbrev wrapIdx : IVec S1024x1 32 :=
  broadcastInDim S1024x1 ![0] Gen.bcast_S1024_S1024x1_0
    (select (cmpi .slt s (broadcastInDim S1024 ![] Gen.bcast_S_S1024 (constantI S_ 32 0#32)))
      (addi s (broadcastInDim S1024 ![] Gen.bcast_S_S1024 (constantI S_ 32 N))) s)

/-- The fill mask: row by row, whether the wrapped index lies in `[0, M]`. -/
abbrev rangeMask : IVec S1024x128 1 :=
  broadcastInDim S1024x128 ![0] Gen.bcast_S1024_S1024x128_0
    (Host.reduce IntOp.andi
      (andi (cmpi .sge (wrapIdx s N) (broadcastInDim S1024x1 ![] Gen.bcast_S_S1024x1 (constantI S_ 32 0#32)))
        (cmpi .sle (wrapIdx s N)
          (broadcastInDim S1024x1 ![0, 1] Gen.bcast_S1x1_S1024x1_0_1
            (broadcastInDim S1x1 ![1] Gen.bcast_S1_S1x1_1 (constantI S1 32 M)))))
      (constantI S_ 1 1#1) Gen.reducesTo_S1024x1_S1024_d1 Gen.h_S_)

/-- The gathered rows, a row whose index is out of range replaced by NaNs. -/
abbrev maskedTake : FVec Ideal S1024x128 .f32 :=
  select (rangeMask s N M) (Host.gather dims tab (wrapIdx s N))
    (broadcastInDim S1024x128 ![] Gen.bcast_S_S1024x128 (constant (F := Ideal) S_ .f32 0x7FC00000#32))

variable (hs : ∀ r, IntOp.cmpi .sge (s r) 0#32 = 1#1 ∧ IntOp.cmpi .sle (s r) M = 1#1)
include hs

/-- With every index in `[0, M]` the fill mask is all ones. -/
theorem rangeMask_one (i : S1024x128.Idx) : rangeMask s N M i = 1#1 := by
  show Host.reduce IntOp.andi _ _ _ _ _ = 1#1
  refine reduce_andi_one _ _ _ _ (fun k => ?_) (fun _ => rfl) _
  exact wrapped_in_range N M (hs _).1 (hs _).2

/-- With every index in `[0, M]` the masked gather is the gather: no row is filled. -/
theorem maskedTake_eq : maskedTake dims tab s N M = Host.gather dims tab (wrapIdx s N) := by
  funext i
  show Scalar.select (rangeMask s N M i) _ _ = _
  rw [rangeMask_one s N M hs i, ValueIdx.select_one]

end Take

/-! ## The precondition's index ranges, row by row -/

/-- The two evident-domain conjuncts of the precondition, read at a row: both indices are signed-nonnegative and
    signed-below their table's row count. -/
theorem pre_rows (a0 a1 : IVec S1024 32) (a2 : FVec Ideal S100000x128 .f32) (a3 : FVec Ideal S18x128 .f32)
    (h : Cert.Pre_finite_inputs.fn (F := Ideal) a0 a1 a2 a3 = fun _ => 1#1) (r : S1024.Idx) :
    (IntOp.cmpi .sge (a0 r) 0#32 = 1#1 ∧ IntOp.cmpi .slt (a0 r) 100000#32 = 1#1)
      ∧ (IntOp.cmpi .sge (a1 r) 0#32 = 1#1 ∧ IntOp.cmpi .slt (a1 r) 18#32 = 1#1) := by
  have h0 := congrFun h ValueIdx.ix0
  dsimp only [Cert.Pre_finite_inputs.fn, Cert.Pre_finite_inputs.fn_part1] at h0
  obtain ⟨h15, h21⟩ := IntOp.andi_eq_one.1 h0
  obtain ⟨_, h14⟩ := IntOp.andi_eq_one.1 h15
  haveI : Subsingleton Cert.Pre_finite_inputs.S_.Idx := ⟨fun a b => funext fun d => d.elim0⟩
  have r0 := Host.reduce_andi_all _ _ _ _ _ h14 r
  have r1 := Host.reduce_andi_all _ _ _ _ _ h21 r
  exact ⟨IntOp.andi_eq_one.1 r0, IntOp.andi_eq_one.1 r1⟩

/-! ## The host prefix computes the reference's `combined` -/

set_option maxHeartbeats 1600000 in
/-- What the operations before the region leave in `main_v2`: the product of the two masked gathers. -/
theorem V_main_v2 (m : (ℓ : Loc Cert.KernelIdeal.nD Cert.KernelIdeal.τ Cert.KernelIdeal.sig) → Buf (Elt Ideal) ℓ) (c : Dev Cert.KernelIdeal.nD) :
    (Cert.KernelIdeal.Gen.V (F := Ideal) m c Cert.KernelIdeal.main_v2 : Cert.KernelIdeal.S1024x128.Idx → EReal)
      = mulf (F := Ideal)
          (maskedTake Cert.KernelIdeal.gather_S100000x128_S1024x1_S1024x128_1_0_n_n_0_1_1128
            (m ((c.tc : Thread Cert.KernelIdeal.nD Cert.KernelIdeal.τ).loc Cert.KernelIdeal.main_arg2))
            (m ((c.tc : Thread Cert.KernelIdeal.nD Cert.KernelIdeal.τ).loc Cert.KernelIdeal.main_arg0)) 100000#32 99999#32)
          (maskedTake Cert.KernelIdeal.gather_S18x128_S1024x1_S1024x128_1_0_n_n_0_1_1128
            (m ((c.tc : Thread Cert.KernelIdeal.nD Cert.KernelIdeal.τ).loc Cert.KernelIdeal.main_arg3))
            (m ((c.tc : Thread Cert.KernelIdeal.nD Cert.KernelIdeal.τ).loc Cert.KernelIdeal.main_arg1)) 18#32 17#32) := by
  dsimp only [Gen.V]
  simp only [Gen.hostOps0, Gen.hostOps0_1, Gen.hostOps0_2, List.flatten_cons, List.flatten_nil, List.append_nil, List.cons_append,
    List.nil_append]
  after_results_simp
  rfl

theorem combined_eq (m : (ℓ : Loc Cert.KernelIdeal.nD Cert.KernelIdeal.τ Cert.KernelIdeal.sig) → Buf (Elt Ideal) ℓ) (hpre : Cert.Pre_KernelIdeal m) (c : Dev Cert.KernelIdeal.nD) :
    (Cert.KernelIdeal.Gen.V (F := Ideal) m c Cert.KernelIdeal.main_v2 : Cert.KernelIdeal.S1024x128.Idx → EReal)
      = Cert.ReferenceIdeal.Read.val_main_v14 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  have hr := pre_rows _ _ _ _ (hpre c)
  rw [V_main_v2 m c,
    maskedTake_eq _ _ _ 100000#32 99999#32 (fun r => ⟨(hr r).1.1, sle_of_slt_succ (by decide) (hr r).1.2⟩),
    maskedTake_eq _ _ _ 18#32 17#32 (fun r => ⟨(hr r).2.1, sle_of_slt_succ (by decide) (hr r).2.2⟩)]
  rfl

end Cert.HostPrefix

end
-- ==== Proof.RefValue.lean ====
/-
  The reference, read: its result at row b and column n is the sum over the 128 columns e of combined(b, e) ·
  table(n, e), where combined is the elementwise product of the two gathered row arrays — the same whole product
  the kernel's result array ends holding, of the same left operand.
-/
import proofs.«401116_j76965813944901_3_alg».proof.Proof.Gen.ReferenceIdeal.Read
import proofs.«401116_j76965813944901_3_alg».proof.Proof.KernelIdealValue

noncomputable section

namespace Cert.RefValue

open Idealize.ShloMosaic Idealize.ShloMosaic.TcCoe Idealize.SL.Sem
open Cert.ReferenceIdeal Cert.ReferenceIdeal.Read

/-- The reference's one contraction, index by index, is the whole product of its `combined` array and the table. -/
theorem ref_eq_G (x0 x1 : (⟨S1024, .i32⟩ : BufTy).Contents (Elt Ideal)) (x2 : (⟨S100000x128, .f32⟩ : BufTy).Contents (Elt Ideal))
    (x3 : (⟨S18x128, .f32⟩ : BufTy).Contents (Elt Ideal)) :
    val_main_v15 (F := Ideal) x0 x1 x2 x3 = Cert.KernelIdeal.Val.G (val_main_v14 (F := Ideal) x0 x1 x2 x3) x2 := by
  funext i
  rw [val_main_v15_apply]
  rfl

end Cert.RefValue

end
-- ==== Proof.lean ====
/-
  The kernel scores every one of 100000 embedding rows against 1024 query rows: it gathers a subject row and a
  relation row per query on the host (NumPy's negative wrap, then a gather that fills a row whose index is out of
  range with NaNs), multiplies them elementwise into `combined` [1024,128], and one pallas_call on a grid of 33
  points multiplies `combined` with one [3072,128] block of the table per point, writing the [1024,3072] product
  to its columns of the [1024,100000] result. The reference gathers the same rows in clamp mode and contracts
  `combined` with the whole table in one dot_general.

  Under the precondition's index ranges (0 ≤ batch_subj_index < 100000, 0 ≤ rel_index < 18) no row is filled and
  the two `combined` arrays are one array. At the ideal instance the kernel's changes of float format are the
  identity and its matrix product into a zero accumulator is the plain sum of products, so the result array ends
  holding, at (b, n), the sum over e of combined(b, e) · table(n, e) — block by block, the last block's rows past
  the table's end reaching only columns past the result's end, which the cut write-back drops — and that sum is
  the reference's contraction read at (b, n). No law of the extended reals is needed beyond 0 + x = x: the two
  sides are the same sum of the same products, so finiteness of the inputs is never used.

  The three frames: the two kernel programs by the pipeline's run with the result buffer's contents left unnamed
  (at any float instance), the reference by its run with the result dropped. The idealization rewrote nothing.
-/
import proofs.«401116_j76965813944901_3_alg».proof.Defs
import proofs.«401116_j76965813944901_3_alg».proof.Proof.Gen.Kernel
import proofs.«401116_j76965813944901_3_alg».proof.Proof.Gen.KernelIdeal
import proofs.«401116_j76965813944901_3_alg».proof.Proof.Gen.ReferenceIdeal
import proofs.«401116_j76965813944901_3_alg».proof.Proof.Gen.ReferenceIdeal.Run
import proofs.«401116_j76965813944901_3_alg».proof.Proof.Gen.ReferenceIdeal.Read
import proofs.«401116_j76965813944901_3_alg».proof.Proof.Gen.Pre_finite_inputs
import proofs.«401116_j76965813944901_3_alg».proof.Proof.KernelFrame
import proofs.«401116_j76965813944901_3_alg».proof.Proof.KernelIdealFrame
import proofs.«401116_j76965813944901_3_alg».proof.Proof.KernelIdealValue
import proofs.«401116_j76965813944901_3_alg».proof.Proof.HostPrefix
import proofs.«401116_j76965813944901_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end holding the whole product of `combined` and the table: the kernel's result array by its
    run read block by block, the reference's by its one contraction read at an index; the kernel's `combined` is
    the reference's under the index ranges. -/
theorem algebraic : Cert.algebraic_KernelIdeal_ReferenceIdeal := by
  intro m ρ m' ρ' hpre hagree
  refine ⟨fun c => Cert.KernelIdeal.Val.G (Cert.KernelIdeal.Gen.V (F := Ideal) m c Cert.KernelIdeal.main_v2)
      (m ((c.tc : Thread Cert.KernelIdeal.nD Cert.KernelIdeal.τ).loc Cert.KernelIdeal.main_arg2)),
    Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2.1, (hagree c).2.2.2,
    Cert.RefValue.ref_eq_G]
  show _ = Cert.KernelIdeal.Val.G (Cert.KernelIdeal.Gen.V (F := Ideal) m c Cert.KernelIdeal.main_v2)
    (m ((c.tc : Thread Cert.KernelIdeal.nD Cert.KernelIdeal.τ).loc Cert.KernelIdeal.main_arg2))
  rw [Cert.HostPrefix.combined_eq m hpre c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
